-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256x1 : Shape := ⟨2, ![256, 1]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S4x2048x4096 .f32) (main_arg1 : FVec F S256x1 .f32) (main_arg2 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  main_v8
-- ==== Kernel.lean ====
abbrev S4x2048x4096 : Shape := ⟨3, ![4, 2048, 4096]⟩
abbrev S256x1 : Shape := ⟨2, ![256, 1]⟩
abbrev S4096x4096 : Shape := ⟨2, ![4096, 4096]⟩
abbrev S256 : Shape := ⟨1, ![256]⟩
abbrev S_ : Shape := ⟨0, ![]⟩
abbrev S4096x4096x1 : Shape := ⟨3, ![4096, 4096, 1]⟩
abbrev S8192x4096 : Shape := ⟨2, ![8192, 4096]⟩
abbrev S1024x1024 : Shape := ⟨2, ![1024, 1024]⟩

abbrev nBuf : Space → Nat
  | .hbm => 18
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S256x1, .f32⟩
  | .hbm, ⟨2, _⟩ => ⟨S4096x4096, .i32⟩
  | .hbm, ⟨3, _⟩ => ⟨S256, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4096x4096, .bf16⟩
  | .hbm, ⟨14, _⟩ => ⟨S8192x4096, .f32⟩
  | .hbm, ⟨15, _⟩ => ⟨S8192x4096, .bf16⟩
  | .hbm, ⟨16, _⟩ => ⟨S8192x4096, .f32⟩
  | .hbm, ⟨17, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S256x1_S256 : S256x1.ShapeCasts S256
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bitsLt_bf16_f32 : FTy.bits .bf16 < FTy.bits .f32
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256x1 : Shape := ⟨2, ![256, 1]⟩
abbrev S4096x4096 : Shape := ⟨2, ![4096, 4096]⟩
abbrev S256 : Shape := ⟨1, ![256]⟩
abbrev S_ : Shape := ⟨0, ![]⟩
abbrev S4096x4096x1 : Shape := ⟨3, ![4096, 4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256x1, .f32⟩
  | .hbm, ⟨2, _⟩ => ⟨S4096x4096, .i32⟩
  | .hbm, ⟨3, _⟩ => ⟨S256, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  shapeCasts_S256x1_S256 : S256x1.ShapeCasts S256
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  gather_S256_S4096x4096x1_S4096x4096_n_0_n_n_0_2_1_wf : GatherDims.WF S256 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.CasePieces.lean ====
/- What one grid point's body leaves behind, case by case.

   The grid is (row block, column block, reduction step). The body keeps a 1024 × 1024 accumulator across the four
   reduction steps of a (row block, column block) pair: at step 0 it first stores zeros; at every step it adds the
   product of the point's activation block with the transposed weight block; at step 3 it copies the accumulator into
   the output block. Each case's stores are whole-block stores, so what a buffer holds afterwards is the last store's
   value, a pure function of the two input blocks and of what the accumulator held before. -/
import proofs.«168586_j24163486007516_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The offsets of every load and store of the body: the whole block. -/
theorem hz : (![0, 0] : Fin 2 → Nat) = fun _ => 0 := funext fun a => by fin_cases a <;> rfl

/-- At a first reduction step the body stores the zero block into the accumulator, reads it back, and stores
    zero + a·bᵀ: the later store covers the accumulator, and its addend is the zero block just written. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz]
  simp only [View.readAt_eq_ld, h3.read_unread, h4.read_unread, View.readCov_unit_zero (S := S1024x1024) _ hz,
    View.ld_unit_zero (S := S1024x1024) hz]

/-- At a middle reduction step the accumulator holding `xs` ends at xs + a·bᵀ: one covering store. -/
theorem acc_next (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz]

/-- At the last reduction step the accumulator holding `xs` ends at xs + a·bᵀ as well; -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs : Vec F S1024x1024 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]

/-- and the output block is a copy of the accumulator read back after that store: xs + a·bᵀ. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs : Vec F S1024x1024 .f32) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.readCov_unit_zero (S := S1024x1024) _ hz,
    View.ld_unit_zero (S := S1024x1024) hz]

end Cert.KernelIdeal.Acc

end
-- ==== Proof.BlockChain.lean ====
/- The accumulator over a (row block, column block) pair's four reduction steps.

   Grid point t = 16·i + 4·j + k handles row block i, column block j and reduction step k. Its activation block is
   rows 1024·i … of the activations and columns 1024·k …; its weight block is rows 1024·j … of the weights and
   columns 1024·k …. Along k = 0, 1, 2, 3 the accumulator goes zero + P₀, + P₁, + P₂, + P₃ with Pₖ the product of
   the step's activation block with the transposed weight block, and the block written back at k = 3 is that sum. -/
import proofs.«168586_j24163486007516_1_alg».proof.Proof.CasePieces
import Idealize.ShloMosaic.Lib.ValueIdx

noncomputable section

open Idealize.ShloMosaic Idealize.ShloMosaic.TcCoe Idealize.SL.Sem

namespace Cert.KernelIdeal.Acc

open Cert.KernelIdeal Cert.KernelIdeal.Gen Idealize.ShloMosaic.ValueIdx

variable {F : FTy → Type} [FloatOps F]
variable (m : (ℓ : Loc nD τ sig) → Buf (Elt F) ℓ)

/-! ## The blocks a point reads -/

/-- The activations (8192 × 4096) and the weights (4096 × 4096) as the region finds them, and the blocks of them
    that a grid point is handed. -/
abbrev acts (c : Dev nD) : Vec F S8192x4096 .bf16 := V m c main_v10
abbrev wts (c : Dev nD) : Vec F S4096x4096 .bf16 := V m c main_v8
abbrev ablk (c : Dev nD) (t : Fin cfg0.N) : Vec F S1024x1024 .bf16 := iblk m c 0 t
abbrev wblk (c : Dev nD) (t : Fin cfg0.N) : Vec F S1024x1024 .bf16 := iblk m c 1 t

/-- Point t = 16·i + 4·j + k reads activation block (i, k), weight block (j, k), and writes output block (i, j). -/
theorem idx_a : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx_w : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem idx_o : ∀ t : Fin cfg0.N, win0_2.index t (0 : Fin 2) = t.val / 16 ∧ win0_2.index t (1 : Fin 2) = t.val / 4 % 4 :=
  (by decide +kernel : ∀ t : Fin grid0.N, win0_2.index t (0 : Fin 2) = t.val / 16 ∧ win0_2.index t (1 : Fin 2) = t.val / 4 % 4)

/-- Entry (p, kk) of the activation block at point t is entry (1024·(t / 16) + p, 1024·(t % 4) + kk) of the activations. -/
theorem ablk_apply (c : Dev nD) (t : Fin cfg0.N) (p kk : Fin 1024) (r : Fin 8192) (n : Fin 4096)
    (hr : r.val = 1024 * (t.val / 16) + p.val) (hn : n.val = 1024 * (t.val % 4) + kk.val) :
    ablk m c t (ix2 p kk) = acts m c (ix2 r n) := by
  have hi := idx_a t
  show iblk m c 0 t (ix2 p kk) = V m c main_v10 (ix2 r n)
  unfold iblk
  rw [View.read_apply]
  show V m c main_v10 _ = V m c main_v10 _
  congr 1
  funext a
  apply Fin.ext
  match a with
  | ⟨0, _⟩ => show win0_0.index t (0 : Fin 2) * 1024 + 1 * p.val = r.val; rw [hi.1, hr]; omega
  | ⟨1, _⟩ => show win0_0.index t (1 : Fin 2) * 1024 + 1 * kk.val = n.val; rw [hi.2, hn]; omega

/-- Entry (q, kk) of the weight block at point t is entry (1024·(t / 4 % 4) + q, 1024·(t % 4) + kk) of the weights. -/
theorem wblk_apply (c : Dev nD) (t : Fin cfg0.N) (q kk : Fin 1024) (s : Fin 4096) (n : Fin 4096)
    (hs : s.val = 1024 * (t.val / 4 % 4) + q.val) (hn : n.val = 1024 * (t.val % 4) + kk.val) :
    wblk m c t (ix2 q kk) = wts m c (ix2 s n) := by
  have hi := idx_w t
  show iblk m c 1 t (ix2 q kk) = V m c main_v8 (ix2 s n)
  unfold iblk
  rw [View.read_apply]
  show V m c main_v8 _ = V m c main_v8 _
  congr 1
  funext a
  apply Fin.ext
  match a with
  | ⟨0, _⟩ => show win0_1.index t (0 : Fin 2) * 1024 + 1 * q.val = s.val; rw [hi.1, hs]; omega
  | ⟨1, _⟩ => show win0_1.index t (1 : Fin 2) * 1024 + 1 * kk.val = n.val; rw [hi.2, hn]; omega

/-! ## The accumulator along the four reduction steps of one output block -/

/-- The point before. -/
abbrev prev (t : Fin cfg0.N) : Fin cfg0.N := ⟨t.val - 1, Nat.lt_of_le_of_lt (Nat.sub_le _ _) t.isLt⟩

/-- After a first step the accumulator holds zero + a·bᵀ of the point's blocks. -/
theorem scr_first (c : Dev nD) (t : Fin cfg0.N) (h0 : t.val % 4 = 0) :
    (outsAt0 m c t.val t.isLt).2 = k0_pay2 (ablk m c t) (wblk m c t) (k0_pay1 (F := F)) := by
  have h1 : ¬t.val % 4 = 3 := by omega
  rw [outsAt0_A m c t h0 h1]
  dsimp only
  exact acc_first (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After a middle step it holds what the point before left plus a·bᵀ of the point's blocks. -/
theorem scr_next (c : Dev nD) (t : Fin cfg0.N) (h0 : ¬t.val % 4 = 0) (h1 : ¬t.val % 4 = 3) :
    (outsAt0 m c t.val t.isLt).2
      = k0_pay2 (ablk m c t) (wblk m c t) (outsAt0 m c (prev t).val (prev t).isLt).2 := by
  rw [outsAt0_B m c t h0 h1]
  dsimp only
  exact acc_next (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At a last step the output block is what the point before left plus a·bᵀ of the point's blocks. -/
theorem out_at_last (c : Dev nD) (t : Fin cfg0.N) (h0 : ¬t.val % 4 = 0) (h1 : t.val % 4 = 3) :
    (outsAt0 m c t.val t.isLt).1
      = k0_pay2 (ablk m c t) (wblk m c t) (outsAt0 m c (prev t).val (prev t).isLt).2 := by
  rw [outsAt0_C m c t h0 h1]
  dsimp only
  exact out_last (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- So the block written back at a last step is the four products added in step order onto the zero block. -/
theorem out_chain (c : Dev nD) (t : Fin cfg0.N) (h3 : t.val % 4 = 3) :
    (outsAt0 m c t.val t.isLt).1
      = k0_pay2 (ablk m c t) (wblk m c t)
          (k0_pay2 (ablk m c (prev t)) (wblk m c (prev t))
            (k0_pay2 (ablk m c (prev (prev t))) (wblk m c (prev (prev t)))
              (k0_pay2 (ablk m c (prev (prev (prev t)))) (wblk m c (prev (prev (prev t)))) (k0_pay1 (F := F))))) := by
  have hN : t.val < 128 := lt_of_lt_of_eq t.isLt (show cfg0.N = 128 from N_0)
  refine (out_at_last m c t (by omega) h3).trans (congrArg (k0_pay2 (ablk m c t) (wblk m c t)) ?_)
  refine (scr_next m c (prev t) (by show ¬(t.val - 1) % 4 = 0; omega) (by show ¬(t.val - 1) % 4 = 3; omega)).trans
    (congrArg (k0_pay2 (ablk m c (prev t)) (wblk m c (prev t))) ?_)
  refine (scr_next m c (prev (prev t)) (by show ¬(t.val - 1 - 1) % 4 = 0; omega) (by show ¬(t.val - 1 - 1) % 4 = 3; omega)).trans
    (congrArg (k0_pay2 (ablk m c (prev (prev t))) (wblk m c (prev (prev t)))) ?_)
  exact scr_first m c (prev (prev (prev t))) (by show (t.val - 1 - 1 - 1) % 4 = 0; omega)

end Cert.KernelIdeal.Acc

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibDotTransposedRight.lean ====
/- A matrix product with the right operand transposed, read at one index: both operands' second axes are contracted,
   so the entry at (a, b) is the sum over k of l (a, k) · r (b, k). No batch axis, one contracted axis. The kernel's
   product into a zero accumulator is that sum. -/
import proofs.«168586_j24163486007516_1_alg».proof.Proof.LibDotPlain

noncomputable section

namespace Cert.DotTransposedRight

open Idealize.ShloMosaic Idealize.ShloMosaic.ValueIdx Cert.DotPlain
open scoped BigOperators

/-- The contraction sum at (a, b), re-indexed by the one contracted coordinate: row a of the left operand against
    row b of the right operand. -/
theorem sum_rows_rows {M K N : Nat} (d : DotDims ⟨2, ![M, K]⟩ ⟨2, ![N, K]⟩ ⟨2, ![M, N]⟩)
    (hlb : d.lhsBatch = []) (hrb : d.rhsBatch = []) (hlc : d.lhsContracting = [1]) (hrc : d.rhsContracting = [1])
    (hln : d.lhsNonContracting = [0]) (hrn : d.rhsNonContracting = [0])
    (l : (⟨2, ![M, K]⟩ : Shape).Idx → EReal) (r : (⟨2, ![N, K]⟩ : Shape).Idx → EReal) (a : Fin M) (b : Fin N) :
    (∑ k : d.contr.Idx, l (d.lhsIdx (ix2 a b) k) * r (d.rhsIdx (ix2 a b) k)) = ∑ k : Fin K, l (ix2 a k) * r (ix2 b k) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand keeps the result's row on its first axis and reads the contracted coordinate on its second
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  -- the right operand carries the result's column on its first axis and the contracted coordinate on its second
  have hrr : d.rhsIdx (ix2 a b) ((contrEquiv1 d K hr hs).symm k) = ix2 b k := by
    funext ax
    match ax with
    | ⟨0, _⟩ => exact Fin.ext (rhsIdx_val_nonContr d hlb hrb hln hrn _ _ Nat.one_lt_two)
    | ⟨1, _⟩ => exact Fin.ext ((d.rhsIdx_val_of_single hrc _ _).trans (contrEquiv1_symm_val d K hr hs k))
  rw [hl, hrr]

/-- The kernel's product into the zero accumulator, right operand transposed, at an index. -/
theorem matmul_zero_rows_rows {M K N : Nat} {φ₁ φ₂ : FTy} (d : DotDims ⟨2, ![M, K]⟩ ⟨2, ![N, K]⟩ ⟨2, ![M, N]⟩)
    (hlb : d.lhsBatch = []) (hrb : d.rhsBatch = []) (hlc : d.lhsContracting = [1]) (hrc : d.rhsContracting = [1])
    (hln : d.lhsNonContracting = [0]) (hrn : d.rhsNonContracting = [0])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (sum_rows_rows d hlb hrb hlc hrc hln hrn l r a b)

end Cert.DotTransposedRight

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.BlockProduct.lean ====
/- The product the region leaves: at the extended reals the block written back at a last reduction step is a block of
   activations · weightsᵀ.

   Entry (p, q) of the block of point t = 16·i + 4·j + 3 is (((0 + S₀) + S₁) + S₂) + S₃ with Sₖ the sum over the 1024
   contraction positions of step k. Addition of extended reals is associative and commutative, so the four partial sums
   are one sum over all 4096 positions: no finiteness of the inputs is needed to regroup. -/
import proofs.«168586_j24163486007516_1_alg».proof.Proof.BlockChain
import proofs.«168586_j24163486007516_1_alg».proof.Proof.LibDotTransposedRight
import proofs.«168586_j24163486007516_1_alg».proof.Proof.LibBlockSum
import Idealize.ShloMosaic.Lib.Pipeline.Value
import Idealize.ShloMosaic.PureOps.Ideal.Laws

noncomputable section

open Idealize.ShloMosaic Idealize.ShloMosaic.TcCoe Idealize.SL.Sem
open scoped BigOperators

namespace Cert.KernelIdeal.Acc

open Cert.KernelIdeal Cert.KernelIdeal.Gen Idealize.ShloMosaic.ValueIdx

/-- One step's update at an entry: what the accumulator held plus row p of the activation block against row q of the
    weight block. -/
theorem pay2_apply (x0 x1 : Vec Ideal S1024x1024 .bf16) (acc : Vec Ideal S1024x1024 .f32) (p q : Fin 1024) :
    k0_pay2 (F := Ideal) x0 x1 acc (ix2 p q) = acc (ix2 p q) + ∑ kk : Fin 1024, x0 (ix2 p kk) * x1 (ix2 q kk) := by
  unfold k0_pay2
  simp only [shapeCast_self]
  exact congrArg (acc (ix2 p q) + ·)
    (Cert.DotTransposedRight.matmul_zero_rows_rows dot_S1024x1024_S1024x1024_S1024x1024_1_1_0_0_n_n rfl rfl rfl rfl rfl rfl none x0 x1 p q)

/-- The block the first step stores is zero everywhere. -/
theorem pay1_apply (p q : Fin 1024) : k0_pay1 (F := Ideal) (ix2 p q) = 0 := by
  unfold k0_pay1
  simp only [shapeCast_self]
  exact Ideal.ofBits_zero_f32

variable (m : (ℓ : Loc nD τ sig) → Buf (Elt Ideal) ℓ)

/-- activations · weightsᵀ, entry by entry. -/
def product (c : Dev nD) : Vec Ideal S8192x4096 .f32 :=
  fun j => ∑ n : Fin 4096, acts m c (ix2 (j 0) n) * wts m c (ix2 (j 1) n)

/-- Two blocks whose rows p and q are, position by position, rows r and s of the whole arrays at contraction
    positions 1024·k …: the block's 1024 products are the whole arrays' products at those positions. -/
theorem step_sum_of_rows (A W : Vec Ideal S1024x1024 .bf16) (X : Vec Ideal S8192x4096 .bf16) (Wt : Vec Ideal S4096x4096 .bf16)
    (k : Fin 4) (p q : Fin 1024) (r : Fin 8192) (s : Fin 4096)
    (hA : ∀ kk : Fin 1024, A (ix2 p kk) = X (ix2 r (Cert.BlockSum.pos (B := 4) (R := 1024) (N := 4096) rfl k kk)))
    (hW : ∀ kk : Fin 1024, W (ix2 q kk) = Wt (ix2 s (Cert.BlockSum.pos (B := 4) (R := 1024) (N := 4096) rfl k kk))) :
    ∑ kk : Fin 1024, A (ix2 p kk) * W (ix2 q kk)
      = ∑ kk : Fin 1024, X (ix2 r (Cert.BlockSum.pos (B := 4) (R := 1024) (N := 4096) rfl k kk))
          * Wt (ix2 s (Cert.BlockSum.pos (B := 4) (R := 1024) (N := 4096) rfl k kk)) :=
  Finset.sum_congr rfl fun kk _ => by rw [hA kk, hW kk]

set_option maxHeartbeats 1000000 in
/-- One step's 1024 products are the products at contraction positions 1024·k … 1024·k + 1023 of the whole arrays. -/
theorem step_sum (c : Dev nD) (t : Fin cfg0.N) (k : Fin 4) (p q : Fin 1024) (r : Fin 8192) (s : Fin 4096)
    (hr : r.val = 1024 * (t.val / 16) + p.val) (hs : s.val = 1024 * (t.val / 4 % 4) + q.val) (hk : t.val % 4 = k.val) :
    ∑ kk : Fin 1024, ablk m c t (ix2 p kk) * wblk m c t (ix2 q kk)
      = ∑ kk : Fin 1024, acts m c (ix2 r (Cert.BlockSum.pos (B := 4) (R := 1024) (N := 4096) rfl k kk))
          * wts m c (ix2 s (Cert.BlockSum.pos (B := 4) (R := 1024) (N := 4096) rfl k kk)) := by
  have hn : ∀ kk : Fin 1024,
      (Cert.BlockSum.pos (B := 4) (R := 1024) (N := 4096) rfl k kk).val = 1024 * (t.val % 4) + kk.val := by
    intro kk
    show 1024 * k.val + kk.val = _
    rw [hk]
  exact step_sum_of_rows (ablk m c t) (wblk m c t) (acts m c) (wts m c) k p q r s
    (fun kk => ablk_apply m c t p kk r (Cert.BlockSum.pos (B := 4) (R := 1024) (N := 4096) rfl k kk) hr (hn kk))
    (fun kk => wblk_apply m c t q kk s (Cert.BlockSum.pos (B := 4) (R := 1024) (N := 4096) rfl k kk) hs (hn kk))

set_option maxHeartbeats 1000000 in
/-- The block written back at a last step, at an entry. -/
theorem out_val (c : Dev nD) (t : Fin cfg0.N) (h3 : t.val % 4 = 3) (p q : Fin 1024) (r : Fin 8192) (s : Fin 4096)
    (hr : r.val = 1024 * (t.val / 16) + p.val) (hs : s.val = 1024 * (t.val / 4 % 4) + q.val) :
    (outsAt0 m c t.val t.isLt).1 (ix2 p q) = ∑ n : Fin 4096, acts m c (ix2 r n) * wts m c (ix2 s n) := by
  have hN : t.val < 128 := lt_of_lt_of_eq t.isLt (show cfg0.N = 128 from N_0)
  rw [out_chain m c t h3, pay2_apply, pay2_apply, pay2_apply, pay2_apply, pay1_apply, zero_add]
  rw [← Cert.BlockSum.sum_blocks (B := 4) (R := 1024) (N := 4096) rfl (fun n => acts m c (ix2 r n) * wts m c (ix2 s n)),
    Fin.sum_univ_four]
  refine congrArg₂ (· + ·) (congrArg₂ (· + ·) (congrArg₂ (· + ·) ?_ ?_) ?_) ?_
  · exact step_sum m c (prev (prev (prev t))) 0 p q r s
      (by show r.val = 1024 * ((t.val - 1 - 1 - 1) / 16) + p.val; omega)
      (by show s.val = 1024 * ((t.val - 1 - 1 - 1) / 4 % 4) + q.val; omega)
      (by show (t.val - 1 - 1 - 1) % 4 = 0; omega)
  · exact step_sum m c (prev (prev t)) 1 p q r s
      (by show r.val = 1024 * ((t.val - 1 - 1) / 16) + p.val; omega)
      (by show s.val = 1024 * ((t.val - 1 - 1) / 4 % 4) + q.val; omega)
      (by show (t.val - 1 - 1) % 4 = 1; omega)
  · exact step_sum m c (prev t) 2 p q r s
      (by show r.val = 1024 * ((t.val - 1) / 16) + p.val; omega)
      (by show s.val = 1024 * ((t.val - 1) / 4 % 4) + q.val; omega)
      (by show (t.val - 1) % 4 = 2; omega)
  · exact step_sum m c t 3 p q r s hr hs h3

end Cert.KernelIdeal.Acc

end
-- ==== Proof.Regroup.lean ====
/- Regrouping rows: an array of 4 × 2048 rows of 4096 entries read as 8192 rows, and back. Row (b, s) is row
   2048·b + s; both readings list the entries in the same row-major order. -/
import Idealize.ShloMosaic.Lib.Pipeline.Value
import Idealize.ShloMosaic.Lib.ValueIdx

noncomputable section

namespace Cert.Regroup

open Idealize.ShloMosaic Idealize.ShloMosaic.ValueIdx

abbrev S3 : Shape := ⟨3, ![4, 2048, 4096]⟩
abbrev S2 : Shape := ⟨2, ![8192, 4096]⟩

/-- Reading the three-axis array as 8192 rows: row r = 2048·b + s is row (b, s). -/
theorem merge_apply {α : Type} (x : S3.Idx → α) (h : S3.ShapeCasts S2) (b : Fin 4) (s : Fin 2048) (n : Fin 4096)
    (r : Fin 8192) (hr : r.val = 2048 * b.val + s.val) : shapeCast S2 x h (ix2 r n) = x (ix3 b s n) :=
  shapeCast_apply x h (ix2 r n) (ix3 b s n) (by
    rw [Shape.rowMajor_val_three, Shape.rowMajor_val_two]
    show (b.val * 2048 + s.val) * 4096 + n.val = r.val * 4096 + n.val
    rw [hr]; omega)

/-- Reading the 8192-row array as 4 × 2048 rows: row (b, s) is row 2048·b + s. -/
theorem split_apply {α : Type} (y : S2.Idx → α) (h : S2.ShapeCasts S3) (b : Fin 4) (s : Fin 2048) (n : Fin 4096)
    (r : Fin 8192) (hr : r.val = 2048 * b.val + s.val) : shapeCast S3 y h (ix3 b s n) = y (ix2 r n) :=
  shapeCast_apply y h (ix3 b s n) (ix2 r n) (by
    rw [Shape.rowMajor_val_three, Shape.rowMajor_val_two]
    show r.val * 4096 + n.val = (b.val * 2048 + s.val) * 4096 + n.val
    rw [hr]; omega)

end Cert.Regroup

end
-- ==== Proof.RegionResult.lean ====
/- What the whole program leaves: the region's output array is activations · weightsᵀ, and the result is that array
   with its 8192 rows regrouped as 4 × 2048.

   The output block of point t = 16·i + 4·j + 3 is block (i, j) of the product; these 32 blocks tile the 8192 × 4096
   array, so after the region the array is the product. The one host operation after the region is a reshape. -/
import proofs.«168586_j24163486007516_1_alg».proof.Proof.BlockProduct
import proofs.«168586_j24163486007516_1_alg».proof.Proof.Regroup
import Idealize.ShloMosaic.Lib.StableHlo.Run

noncomputable section

open Idealize.ShloMosaic Idealize.ShloMosaic.TcCoe Idealize.SL.Sem
open Idealize.ShloMosaic.Pipeline (Dat)
open scoped BigOperators

namespace Cert.KernelIdeal.Acc

open Cert.KernelIdeal Cert.KernelIdeal.Gen Idealize.ShloMosaic.ValueIdx

variable (m : (ℓ : Loc nD τ sig) → Buf (Elt Ideal) ℓ) (ρ : Dev nD → PrngReg)

/-- What a last step writes back is its block of the product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hN : t.val < 128 := lt_of_lt_of_eq t.isLt (show cfg0.N = 128 from N_0)
  have hi := idx_o t
  show (cfg0.win 2).cut (grid0.coords t) ((dats m 0 c).after 2 t) = _
  rw [after0_2]
  funext j
  have hj0 : (j 0).val < 1024 := (j 0).isLt
  have hj1 : (j 1).val < 1024 := (j 1).isLt
  rw [View.read_apply]
  show (outsAt0 m c t.val t.isLt).1 j = product m c (((cfg0.win 2).blk t).view.emb j)
  -- entry j of the block, as an entry of the product, by rows and columns
  have hv := out_val m c t h3 ⟨(j 0).val, hj0⟩ ⟨(j 1).val, hj1⟩ ⟨1024 * (t.val / 16) + (j 0).val, by omega⟩
    ⟨1024 * (t.val / 4 % 4) + (j 1).val, by omega⟩ rfl rfl
  have ej : (ix2 (⟨(j 0).val, hj0⟩ : Fin 1024) (⟨(j 1).val, hj1⟩ : Fin 1024) : S1024x1024.Idx) = j :=
    funext fun a => Fin.ext (by
      match a with
      | ⟨0, _⟩ => rfl
      | ⟨1, _⟩ => rfl)
  rw [ej] at hv
  refine hv.trans ?_
  show _ = ∑ n : Fin 4096, acts m c (ix2 ((((cfg0.win 2).blk t).view.emb j) 0) n)
    * wts m c (ix2 ((((cfg0.win 2).blk t).view.emb j) 1) n)
  have e0 : (⟨1024 * (t.val / 16) + (j 0).val, by omega⟩ : Fin 8192) = ((cfg0.win 2).blk t).view.emb j 0 :=
    Fin.ext (by
      show 1024 * (t.val / 16) + (j 0).val = win0_2.index t (0 : Fin 2) * 1024 + 1 * (j 0).val
      rw [hi.1]; omega)
  have e1 : (⟨1024 * (t.val / 4 % 4) + (j 1).val, by omega⟩ : Fin 4096) = ((cfg0.win 2).blk t).view.emb j 1 :=
    Fin.ext (by
      show 1024 * (t.val / 4 % 4) + (j 1).val = win0_2.index t (1 : Fin 2) * 1024 + 1 * (j 1).val
      rw [hi.2]; omega)
  rw [e0, e1]

/-- An entry of the output array lies in point t's block iff each coordinate lies in the block's range. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v11).slice (win0_2.rect t)).set ↔ _
  rw [View.set_slice_whole, Rect.mem_set_unit]
  exact Iff.rfl

/-- Entry (r, o) lies in the block written back at point 16·(r / 1024) + 4·(o / 1024) + 3. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  have ht : 16 * ((i 0).val / 1024) + 4 * ((i 1).val / 1024) + 3 < cfg0.N := by rw [hN]; omega
  have ho := idx_o ⟨16 * ((i 0).val / 1024) + 4 * ((i 1).val / 1024) + 3, ht⟩
  refine ⟨⟨16 * ((i 0).val / 1024) + 4 * ((i 1).val / 1024) + 3, ht⟩, (flush0_2 _).mpr (by
    show (16 * ((i 0).val / 1024) + 4 * ((i 1).val / 1024) + 3) % 4 = 3; omega), ?_⟩
  rw [mem_blk]
  intro a
  match a with
  | ⟨0, _⟩ =>
    show win0_2.index _ (0 : Fin 2) * 1024 ≤ (i 0).val ∧ (i 0).val < win0_2.index _ (0 : Fin 2) * 1024 + 1024
    rw [ho.1]
    show (16 * ((i 0).val / 1024) + 4 * ((i 1).val / 1024) + 3) / 16 * 1024 ≤ (i 0).val
      ∧ (i 0).val < (16 * ((i 0).val / 1024) + 4 * ((i 1).val / 1024) + 3) / 16 * 1024 + 1024
    omega
  | ⟨1, _⟩ =>
    show win0_2.index _ (1 : Fin 2) * 1024 ≤ (i 1).val ∧ (i 1).val < win0_2.index _ (1 : Fin 2) * 1024 + 1024
    rw [ho.2]
    show (16 * ((i 0).val / 1024) + 4 * ((i 1).val / 1024) + 3) / 4 % 4 * 1024 ≤ (i 1).val
      ∧ (i 1).val < (16 * ((i 0).val / 1024) + 4 * ((i 1).val / 1024) + 3) / 4 % 4 * 1024 + 1024
    omega

/-- After the region the output array is the product. -/
theorem region_result (c : Dev nD) : (dats m 0 c).arrAt 2 cfg0.N = product m c :=
  (dats m 0 c).arrAt_eq_of_cover 2 (product m c) (flushed_eq m c) cover

/-- The program's result is the product with its rows regrouped. -/
theorem tail_result (c : Dev nD) :
    Pipeline.afterTail₀ cfgs (dats m) 0 (V0 m) [hostOps1] c main_v12
      = shapeCast S4x2048x4096 (product m c) shapeCasts_S8192x4096_S4x2048x4096 := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v11)
      = product m c :=
    (Pipeline.withArrays_arr spec0 launch0.win.arr_inj c _ _ 2).trans (region_result m c)
  rw [e]
  rfl

/-- Entry (b, s, o) of the result: row 2048·b + s of the activations against row o of the weights. -/
theorem tail_result_apply (c : Dev nD) (b : Fin 4) (s : Fin 2048) (o : Fin 4096) (r : Fin 8192) (hr : r.val = 2048 * b.val + s.val) :
    shapeCast S4x2048x4096 (product m c) shapeCasts_S8192x4096_S4x2048x4096 (ix3 b s o)
      = ∑ n : Fin 4096, acts m c (ix2 r n) * wts m c (ix2 o n) :=
  Cert.Regroup.split_apply (product m c) shapeCasts_S8192x4096_S4x2048x4096 b s o r hr

end Cert.KernelIdeal.Acc

end
-- ==== Proof.Operands.lean ====
/- The two operands the region is handed, in terms of the program's arguments.

   The activations are the input with its 4 × 2048 rows read as 8192 rows; the weights are the centroid table looked up
   at the (wrapped) cluster indices. Both are narrowed to a 16-bit format on the way, which changes nothing at the
   extended reals. The lookup is the very term the reference computes, so it is never opened. -/
import proofs.«168586_j24163486007516_1_alg».proof.Proof.BlockChain
import proofs.«168586_j24163486007516_1_alg».proof.Proof.Regroup
import proofs.«168586_j24163486007516_1_alg».proof.Proof.Gen.ReferenceIdeal.Read
import Idealize.ShloMosaic.Lib.StableHlo.Run

noncomputable section

open Idealize.ShloMosaic Idealize.ShloMosaic.TcCoe Idealize.SL.Sem

namespace Cert.KernelIdeal.Acc

open Cert.KernelIdeal Cert.KernelIdeal.Gen Idealize.ShloMosaic.ValueIdx

variable (m : (ℓ : Loc nD τ sig) → Buf (Elt Ideal) ℓ)

/-- The activations the region finds: the input regrouped to 8192 rows (and narrowed). -/
theorem acts_eq (c : Dev nD) :
    (acts m c : S8192x4096.Idx → EReal)
      = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v10) = _
  after_results
  rfl

/-- The weights the region finds: the reference's looked-up weights (narrowed). -/
theorem wts_eq (c : Dev nD) :
    (wts m c : S4096x4096.Idx → EReal)
      = truncf (F := Ideal) .bf16 (Cert.ReferenceIdeal.Read.val_main_v7 (F := Ideal) (m ((c : Thread nD τ).loc main_arg1)) (m ((c : Thread nD τ).loc main_arg2))) bitsLt_bf16_f32 := by
  show StableHlo.after hostOps0 (fun b => m (c, b)) (Proc.devRef .tc main_v8) = _
  after_results
  rfl

/-- Row r = 2048·b + s of the activations is row (b, s) of the input. -/
theorem acts_apply (c : Dev nD) (b : Fin 4) (s : Fin 2048) (n : Fin 4096) (r : Fin 8192) (hr : r.val = 2048 * b.val + s.val) :
    acts m c (ix2 r n) = m ((c : Thread nD τ).loc main_arg0) (ix3 b s n) := by
  refine (congrFun (acts_eq m c) (ix2 r n)).trans ?_
  exact Cert.Regroup.merge_apply (m ((c : Thread nD τ).loc main_arg0)) shapeCasts_S4x2048x4096_S8192x4096 b s n r hr

/-- The weights at an entry are the reference's looked-up weights there. -/
theorem wts_apply (c : Dev nD) (i : S4096x4096.Idx) :
    wts m c i = Cert.ReferenceIdeal.Read.val_main_v7 (F := Ideal) (m ((c : Thread nD τ).loc main_arg1)) (m ((c : Thread nD τ).loc main_arg2)) i :=
  congrFun (wts_eq m c) i

end Cert.KernelIdeal.Acc

end
-- ==== Proof.Spec.lean ====
/- The layer both programs compute: out[b, s, o] = Σₙ x[b, s, n] · w[o, n], over the extended reals, with x the
   input of 4 × 2048 rows of 4096 entries and w the 4096 × 4096 weight matrix. -/
import Idealize.ShloMosaic.PureOps.Ideal
import Idealize.ShloMosaic.Lib.ValueIdx

noncomputable section

namespace Cert.Linear

open Idealize.ShloMosaic Idealize.ShloMosaic.ValueIdx
open scoped BigOperators

/-- Row (b, s) of the input against row o of the weights. -/
def linear (x : (⟨3, ![4, 2048, 4096]⟩ : Shape).Idx → EReal) (w : (⟨2, ![4096, 4096]⟩ : Shape).Idx → EReal) :
    (⟨3, ![4, 2048, 4096]⟩ : Shape).Idx → EReal :=
  fun j => ∑ n : Fin 4096, x (ix3 (j 0) (j 1) n) * w (ix2 (j 2) n)

theorem linear_apply (x : (⟨3, ![4, 2048, 4096]⟩ : Shape).Idx → EReal) (w : (⟨2, ![4096, 4096]⟩ : Shape).Idx → EReal)
    (b : Fin 4) (s : Fin 2048) (o : Fin 4096) :
    linear x w (ix3 b s o) = ∑ n : Fin 4096, x (ix3 b s n) * w (ix2 o n) := rfl

end Cert.Linear

end
-- ==== Proof.KernelLinear.lean ====
/- The kernel program computes the layer: its result, entry (b, s, o), is row 2048·b + s of the activations against
   row o of the weights, and that row of the activations is row (b, s) of the input, the weights the looked-up ones. -/
import proofs.«168586_j24163486007516_1_alg».proof.Proof.RegionResult
import proofs.«168586_j24163486007516_1_alg».proof.Proof.Operands
import proofs.«168586_j24163486007516_1_alg».proof.Proof.Spec

noncomputable section

open Idealize.ShloMosaic Idealize.ShloMosaic.TcCoe Idealize.SL.Sem
open Idealize.ShloMosaic.Pipeline (Dat)
open scoped BigOperators

namespace Cert.KernelIdeal.Acc

open Cert.KernelIdeal Cert.KernelIdeal.Gen Idealize.ShloMosaic.ValueIdx

variable (m : (ℓ : Loc nD τ sig) → Buf (Elt Ideal) ℓ) (ρ : Dev nD → PrngReg)

/-- The layer of the launch contents of the three arguments. -/
abbrev layer (c : Dev nD) : Buf (Elt Ideal) ((c.tc : Thread nD τ).loc main_v12) :=
  Cert.Linear.linear (m ((c.tc : Thread nD τ).loc main_arg0))
    (Cert.ReferenceIdeal.Read.val_main_v7 (F := Ideal) (m ((c.tc : Thread nD τ).loc main_arg1)) (m ((c.tc : Thread nD τ).loc main_arg2)))

/-- The regrouped product is the layer. -/
theorem result_is_layer (c : Dev nD) :
    shapeCast S4x2048x4096 (product m c) shapeCasts_S8192x4096_S4x2048x4096 = layer m c := by
  funext j
  obtain ⟨b, s, o, rfl⟩ : ∃ (b : Fin 4) (s : Fin 2048) (o : Fin 4096), j = ix3 b s o := ⟨j 0, j 1, j 2, eq_ix3 j⟩
  have hb := b.isLt
  have hs := s.isLt
  refine (tail_result_apply m c b s o ⟨2048 * b.val + s.val, by omega⟩ rfl).trans ?_
  refine (Finset.sum_congr rfl fun n _ => ?_).trans (Cert.Linear.linear_apply _ _ b s o).symm
  exact congrArg₂ (· * ·) (acts_apply m c b s n ⟨2048 * b.val + s.val, by omega⟩ rfl) (wts_apply m c (ix2 o n))

/-- Every execution of the kernel program ends with the result at the layer and the arguments unchanged. -/
theorem run : θ_run defs (onTc (τ := τ) (main (F := Ideal))) ⟨m, fun _ => 0, ρ⟩ fun r => ∀ c : Dev nD,
      r.2.mem ((c.tc : Thread nD τ).loc main_v12) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans
        ((tail_result m c).trans (result_is_layer m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.RefLinear.lean ====
/- The reference is the layer: its one matrix product contracts the input's last axis with the weights' second axis,
   so its entry (b, s, o) is the sum over n of x[b, s, n] · w[o, n], with w the looked-up weights. -/
import proofs.«168586_j24163486007516_1_alg».proof.Proof.Spec
import proofs.«168586_j24163486007516_1_alg».proof.Proof.Gen.ReferenceIdeal.Read

noncomputable section

open Idealize.ShloMosaic Idealize.ShloMosaic.TcCoe Idealize.SL.Sem
open scoped BigOperators

namespace Cert.ReferenceIdeal.RefValue

open Cert.ReferenceIdeal Cert.ReferenceIdeal.Gen Idealize.ShloMosaic.ValueIdx

/-- The reference's result is the layer of the input and the looked-up weights. -/
theorem ref_is_linear (x0 : (⟨S4x2048x4096, .f32⟩ : BufTy).Contents (Elt Ideal)) (x1 : (⟨S256x1, .f32⟩ : BufTy).Contents (Elt Ideal))
    (x2 : (⟨S4096x4096, .i32⟩ : BufTy).Contents (Elt Ideal)) :
    Read.val_main_v8 (F := Ideal) x0 x1 x2 = Cert.Linear.linear x0 (Read.val_main_v7 (F := Ideal) x1 x2) := by
  funext j
  obtain ⟨b, s, o, rfl⟩ : ∃ (b : Fin 4) (s : Fin 2048) (o : Fin 4096), j = ix3 b s o := ⟨j 0, j 1, j 2, eq_ix3 j⟩
  rw [Read.val_main_v8_apply, Cert.Linear.linear_apply]
  refine Finset.sum_congr rfl fun n _ => ?_
  have el : Read.lidx_main_v8 (ix3 b s o) n = ix3 b s n := funext fun a => Fin.ext (by
    match a with
    | ⟨0, _⟩ => rfl
    | ⟨1, _⟩ => rfl
    | ⟨2, _⟩ => rfl)
  have er : Read.ridx_main_v8 (ix3 b s o) n = ix2 o n := funext fun a => Fin.ext (by
    match a with
    | ⟨0, _⟩ => rfl
    | ⟨1, _⟩ => rfl)
  rw [el, er]

end Cert.ReferenceIdeal.RefValue

end
-- ==== Proof.lean ====
/- A linear layer with table-quantized weights: out[b, s, o] = Σₙ x[b, s, n] · w[o, n], where w[o, n] is the centroid
   table looked up at the cluster index of (o, n) (a negative index wrapped by 256 first).

   The reference looks the weights up and takes one matrix product over the input's last axis. The kernel program
   looks the weights up the same way, reads the input's 4 × 2048 rows as 8192 rows, and multiplies in 1024 × 1024
   blocks on a grid of (8 row blocks) × (4 column blocks) × (4 reduction steps): an accumulator is zeroed at step 0,
   gains the block product activationsᵢₖ · weightsⱼₖᵀ at every step, and is written to output block (i, j) at step 3;
   the 8192 rows are regrouped to 4 × 2048 at the end. Both programs narrow nothing at the extended reals, and the
   four partial sums of 1024 products are one sum of 4096 products because addition of extended reals is associative
   and commutative: the two results agree entry by entry, with no use of the inputs' finiteness.

   Both kernel programs run to the end without fault and leave their arguments as they were (the generated frames);
   the reference does so by its generated run; the idealization rewrote nothing, so its faithfulness is trivial. -/
import proofs.«168586_j24163486007516_1_alg».proof.Defs
import proofs.«168586_j24163486007516_1_alg».proof.Proof.Gen.Kernel
import proofs.«168586_j24163486007516_1_alg».proof.Proof.Gen.Kernel.Skeleton
import proofs.«168586_j24163486007516_1_alg».proof.Proof.Gen.Kernel.Launch
import proofs.«168586_j24163486007516_1_alg».proof.Proof.Gen.Kernel.Points
import proofs.«168586_j24163486007516_1_alg».proof.Proof.Gen.Kernel.Frame
import proofs.«168586_j24163486007516_1_alg».proof.Proof.Gen.KernelIdeal
import proofs.«168586_j24163486007516_1_alg».proof.Proof.Gen.KernelIdeal.Skeleton
import proofs.«168586_j24163486007516_1_alg».proof.Proof.Gen.KernelIdeal.Launch
import proofs.«168586_j24163486007516_1_alg».proof.Proof.Gen.KernelIdeal.Points
import proofs.«168586_j24163486007516_1_alg».proof.Proof.Gen.KernelIdeal.Frame
import proofs.«168586_j24163486007516_1_alg».proof.Proof.Gen.ReferenceIdeal
import proofs.«168586_j24163486007516_1_alg».proof.Proof.Gen.Pre_finite_inputs
import proofs.«168586_j24163486007516_1_alg».proof.Proof.Gen.ReferenceIdeal.Run
import proofs.«168586_j24163486007516_1_alg».proof.Proof.Gen.ReferenceIdeal.Read
import proofs.«168586_j24163486007516_1_alg».proof.Proof.KernelLinear
import proofs.«168586_j24163486007516_1_alg».proof.Proof.RefLinear
import Idealize.ShloMosaic.Adequacy
import Idealize.ShloMosaic.Init

noncomputable section

namespace Cert.Proof

open Idealize.ShloMosaic Idealize.SL.Sem

/-- The word-level kernel program terminates without fault and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the three arguments, both programs end with the layer of
    the arguments: the kernel program by its blocked product, the reference by its one product. -/
theorem algebraic : Cert.algebraic_KernelIdeal_ReferenceIdeal := by
  intro m ρ m' ρ' _ hagree
  refine ⟨fun c => Cert.KernelIdeal.Acc.layer m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_is_linear, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
